-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512x8x8 : Shape := ⟨4, ![1024, 512, 8, 8]⟩
abbrev S1024 : Shape := ⟨1, ![1024]⟩
abbrev S_ : Shape := ⟨0, ![]⟩

class Facts : Prop where
  bcast_S_S1024x512x8x8 : S_.BroadcastsInDim S1024x512x8x8 (![] : Fin 0 → Fin S1024x512x8x8.rank)
  reducesTo_S1024x512x8x8_S_d0_1_2_3 : S1024x512x8x8.ReducesTo [0, 1, 2, 3] S_
  h_S_ : 0 < S_.numel

variable [Facts]

def fn {F : FTy → Type} [FloatOps F] (main_arg0 : FVec F S1024x512x8x8 .f32) (main_arg1 : IVec S1024 32) : IVec S_ 1 :=
  let main_v0 : FVec F S1024x512x8x8 .f32 := Host.absf main_arg0
  let main_cst : FVec F S_ .f32 := constant S_ .f32 0x7F800000#32
  let main_v1 : FVec F S1024x512x8x8 .f32 := broadcastInDim S1024x512x8x8 ![] bcast_S_S1024x512x8x8 main_cst
  let main_v2 : IVec S1024x512x8x8 1 := cmpf .olt main_v0 main_v1
  let main_c : IVec S_ 1 := constantI S_ 1 1#1
  let main_v3 : IVec S_ 1 := (fun x v => Host.reduce IntOp.andi x v reducesTo_S1024x512x8x8_S_d0_1_2_3 h_S_) main_v2 main_c
  main_v3
-- ==== Kernel.lean ====
abbrev S1024x512x8x8 : Shape := ⟨4, ![1024, 512, 8, 8]⟩
abbrev S1024 : Shape := ⟨1, ![1024]⟩
abbrev S1024x512x64 : Shape := ⟨3, ![1024, 512, 64]⟩
abbrev S1024x512 : Shape := ⟨2, ![1024, 512]⟩
abbrev S64x512x64 : Shape := ⟨3, ![64, 512, 64]⟩
abbrev S64x512 : Shape := ⟨2, ![64, 512]⟩
abbrev S1024x1 : Shape := ⟨2, ![1024, 1]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S1024x512x8x8, .f32⟩
  | .hbm, ⟨1, _⟩ => ⟨S1024, .i32⟩
  | .hbm, ⟨2, _⟩ => ⟨S1024x512x64, .f32⟩
  | .hbm, ⟨3, _⟩ => ⟨S1024x512, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S64x512x64, .f32⟩
  | .local _ .vmem, ⟨1, _⟩ => ⟨S64x512x64, .f32⟩
  | .local _ .vmem, ⟨2, _⟩ => ⟨S64x512, .f32⟩
  | .local _ .vmem, ⟨3, _⟩ => ⟨S64x512, .f32⟩
  | .local _ .vmem, ⟨4, _⟩ => ⟨S1024x512, .f32⟩
  | .local _ .vmem, ⟨5, _⟩ => ⟨S1024, .i32⟩
  | .local _ .vmem, ⟨6, _⟩ => ⟨S1024, .f32⟩
  | _, _ => ⟨S1024x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S1024x512x8x8_S1024x512x64 : S1024x512x8x8.ShapeCasts S1024x512x64
  inb_S64x512x64_S64x512x64_0_0_0 : ∀ a, (![0, 0, 0] : Fin 3 → Nat) a + S64x512x64.size a ≤ S64x512x64.size a
  h_S64x512x64 : 0 < S64x512x64.numel
  shapeCasts_S64x512x64_S64x512x64 : S64x512x64.ShapeCasts S64x512x64
  reduces_S64x512x64_S64x512 : S64x512x64.Reduces [2] S64x512
  inb_S64x512_S64x512_0_0 : ∀ a, (![0, 0] : Fin 2 → Nat) a + S64x512.size a ≤ S64x512.size a
  h_S64x512 : 0 < S64x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  transposes_S1024x512_p1_0_S512x1024 : S1024x512.Transposes [1, 0] S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reducesTo_S1024_S_d0 : S1024.ReducesTo [0] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512x64.size a ≤ S1024x512x64.size a
  hwx0_0 : ∀ i : grid0.Coords, EltTy.bits .f32 = 32 ∨ (Rect.block (s := S1024x512x64) S64x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S1024x512.size a
  hwx0_1 : ∀ i : grid0.Coords, EltTy.bits .f32 = 32 ∨ (Rect.block (s := S1024x512) S64x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .i32 = 32 ∨ (Rect.block (s := S1024) S1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S64x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x512x8x8 : Shape := ⟨4, ![1024, 512, 8, 8]⟩
abbrev S1024 : Shape := ⟨1, ![1024]⟩
abbrev S_ : Shape := ⟨0, ![]⟩
abbrev S1024x512 : Shape := ⟨2, ![1024, 512]⟩
abbrev S1024x1 : Shape := ⟨2, ![1024, 1]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1024x512x8x8, .f32⟩
  | .hbm, ⟨1, _⟩ => ⟨S1024, .i32⟩
  | .hbm, ⟨2, _⟩ => ⟨S_, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S512x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1, .i32⟩
  | .hbm, ⟨24, _⟩ => ⟨S1x1024, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S_, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S1024x512x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  reducesTo_S1024x512x8x8_S1024x512_d2_3 : S1024x512x8x8.ReducesTo [2, 3] S1024x512
  h_S_ : 0 < S_.numel
  bcast_S_S1024x512 : S_.BroadcastsInDim S1024x512 (![] : Fin 0 → Fin S1024x512.rank)
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  transposes_S1024x512_S512x1024_1_0 : S1024x512.Transposes [1, 0] S512x1024
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  reducesTo_S1024_S_d0 : S1024.ReducesTo [0] S_
  dot_S1024x512_S512x1024_S1024x1024_1_0_0_1_n_n_wf : DotDims.WF S1024x512 S512x1024 S1024x1024 [1] [0] [0] [1] [] []

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

class Facts : Prop extends Facts₀ where

variable [Facts]
-- ==== Proof.PoolPay.lean ====
/-
  The mean kernel's stored value, entry by entry.

  The body loads a [64, 512, 64] block (64 samples, 512 channels, the 64 positions of each 8 × 8 tile as lanes), sums
  the lanes and multiplies by 2⁻⁶: entry `(r, c)` of what it stores is the lane sum of row `(r, c)` times 2⁻⁶.
  `pooledLanes` is the same formula over a whole [1024, 512, 64] array.
-/
import proofs.«170635_j14654428414813_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Contrastive

open Idealize.ShloMosaic Idealize.ShloMosaic.ValueIdx Cert.KernelIdeal Cert.KernelIdeal.Gen

/-- The lane sum times 2⁻⁶, over the whole array laid out with the tiles as lanes. -/
def pooledLanes (a : S1024x512x64.Idx → EReal) : S1024x512.Idx → EReal := fun i =>
  (∑ k : Fin 64, a (ix3 (i 0) (i 1) k)) * Ideal.ofBits .f32 0x3C800000#32

/-- Entry `(r, c)` of the stored block. -/
theorem poolPay_apply (x0 : Vec Ideal S64x512x64 .f32) (r : Fin 64) (c : Fin 512) :
    k0_pay1 (F := Ideal) x0 (ix2 r c) = (∑ k : Fin 64, x0 (ix3 r c k)) * Ideal.ofBits .f32 0x3C800000#32 := by
  unfold k0_pay1
  dsimp only
  rw [mulf_apply, broadcast_apply, shapeCast_self]
  refine congrArg₂ (· * ·) ?_ rfl
  refine (Ideal.multiReduction_add_single _ _ _ _ _ _).trans ?_
  refine Finset.sum_congr rfl fun k _ => congrArg x0 (funext fun a => Fin.ext ?_)
  match a with
  | ⟨0, _⟩ => rfl
  | ⟨1, _⟩ => rfl
  | ⟨2, _⟩ => rfl

/-- The stored block read at `y` is `pooledLanes` of an array `a` at `i`, when the loaded block's row `(y 0, y 1)` is
    `a`'s row `(i 0, i 1)`, lane by lane. -/
theorem poolPay_of_rows (x0 : Vec Ideal S64x512x64 .f32) (a : S1024x512x64.Idx → EReal) (y : S64x512.Idx) (i : S1024x512.Idx)
    (hx : ∀ k : Fin 64, x0 (ix3 (y 0) (y 1) k) = a (ix3 (i 0) (i 1) k)) :
    k0_pay1 (F := Ideal) x0 y = pooledLanes a i := by
  obtain ⟨r, c, rfl⟩ : ∃ (r : Fin 64) (c : Fin 512), y = ix2 r c := ⟨y 0, y 1, eq_ix2 y⟩
  rw [poolPay_apply]
  unfold pooledLanes
  exact congrArg₂ (· * ·) (Finset.sum_congr rfl fun k _ => hx k) rfl

end Cert.Contrastive

end
-- ==== Proof.PoolRegion.lean ====
/-
  The pooled array after the first region.

  The region walks 16 points; point `t` loads samples `64 t … 64 t + 63` (all channels, all 64 lanes) and writes back
  the pooled rows of those samples. Each written block is therefore the restriction of ONE whole-array function,
  `pooledLanes` of the array the region reads, and the 16 blocks cover every sample: the array after the region is
  that function.
-/
import proofs.«170635_j14654428414813_1_alg».proof.Proof.Gen.KernelIdeal.Frame
import proofs.«170635_j14654428414813_1_alg».proof.Proof.PoolPay
import Idealize.ShloMosaic.Lib.Pipeline.Value

set_option maxRecDepth 16384

noncomputable section

namespace Cert.Contrastive

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

private theorem zero2 : (![0, 0] : Fin 2 → Nat) = fun _ => 0 := funext fun a => by fin_cases a <;> rfl
private theorem zero3 : (![0, 0, 0] : Fin 3 → Nat) = fun _ => 0 := funext fun a => by fin_cases a <;> rfl

/-- Point `t` reads block `(t, 0, 0)` of the laid-out features and writes block `(t, 0)` of the pooled array. -/
theorem poolIdx : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- What point `t` writes back is block `t` of `pooledLanes` of the array the region reads. -/
theorem pool_flushed (c : Dev nD) (t : Fin cfg0.N) :
    (dat0 V c).flushed 1 t = ((cfg0.win 1).blk t).view.read (Elt Ideal) (pooledLanes (V c main_v0)) := by
  show (cfg0.win 1).cut (grid0.coords t) ((dat0 V c).after 1 t) = _
  rw [after0_1]
  unfold out0_1
  rw [View.canon_unit_zero zero2]
  simp only [View.ld_unit_zero (S := S64x512x64) zero3]
  obtain ⟨e0, e1, e2, e3, e4⟩ := poolIdx t
  funext j
  show k0_pay1 (iblk0 V c 0 t) j = pooledLanes (V c main_v0) (((cfg0.win 1).blk t).view.emb j)
  refine poolPay_of_rows _ _ _ _ fun k => ?_
  show V c main_v0 (((cfg0.win 0).blk t).view.emb (ix3 (j 0) (j 1) k))
    = V c main_v0 (ix3 ((((cfg0.win 1).blk t).view.emb j) 0) ((((cfg0.win 1).blk t).view.emb j) 1) k)
  refine congrArg _ (funext fun a => Fin.ext ?_)
  match a with
  | ⟨0, _⟩ => show win0_0.index t (0 : Fin 3) * 64 + 1 * (j 0).val = win0_1.index t (0 : Fin 2) * 64 + 1 * (j 0).val; omega
  | ⟨1, _⟩ => show win0_0.index t (1 : Fin 3) * 512 + 1 * (j 1).val = win0_1.index t (1 : Fin 2) * 512 + 1 * (j 1).val; omega
  | ⟨2, _⟩ => show win0_0.index t (2 : Fin 3) * 64 + 1 * k.val = k.val; omega

/-- An index of the pooled array lies in point `t`'s block iff each coordinate lies in the block's range. -/
theorem pool_mem (t : Fin cfg0.N) (i : S1024x512.Idx) :
    i ∈ ((cfg0.win 1).blk t).view.set ↔ ∀ a : Fin 2, win0_1.index t a * S64x512.size a ≤ (i a).val
      ∧ (i a).val < win0_1.index t a * S64x512.size a + S64x512.size a := by
  show i ∈ ((View.whole main_v1).slice (win0_1.rect t)).set ↔ _
  rw [View.set_slice_whole, Rect.mem_set_unit]
  exact Iff.rfl

/-- Sample `b`'s row is written at point `b / 64`. -/
theorem pool_cover (i : S1024x512.Idx) :
    ∃ t : Fin cfg0.N, (cfg0.win 1).flush t = true ∧ i ∈ ((cfg0.win 1).blk t).view.set := by
  have hi0 : (i 0).val < 1024 := (i 0).isLt
  have hi1 : (i 1).val < 512 := (i 1).isLt
  have ht : (i 0).val / 64 < grid0.N := by rw [N_0]; omega
  refine ⟨⟨(i 0).val / 64, ht⟩, flush0_1 _, ?_⟩
  rw [pool_mem]
  obtain ⟨-, -, -, e3, e4⟩ := poolIdx ⟨(i 0).val / 64, ht⟩
  have e3' : win0_1.index ⟨(i 0).val / 64, ht⟩ (0 : Fin 2) = (i 0).val / 64 := e3
  intro a
  match a with
  | ⟨0, _⟩ =>
    show win0_1.index ⟨(i 0).val / 64, ht⟩ (0 : Fin 2) * 64 ≤ (i 0).val
      ∧ (i 0).val < win0_1.index ⟨(i 0).val / 64, ht⟩ (0 : Fin 2) * 64 + 64
    omega
  | ⟨1, _⟩ =>
    show win0_1.index ⟨(i 0).val / 64, ht⟩ (1 : Fin 2) * 512 ≤ (i 1).val
      ∧ (i 1).val < win0_1.index ⟨(i 0).val / 64, ht⟩ (1 : Fin 2) * 512 + 512
    omega

/-- The pooled array after the region. -/
theorem pool_array (c : Dev nD) : (dat0 V c).arrAt 1 cfg0.N = pooledLanes (V c main_v0) :=
  (dat0 V c).arrAt_eq_of_cover 1 (pooledLanes (V c main_v0)) (fun t _ => pool_flushed V c t) pool_cover

end Cert.Contrastive

end
-- ==== Proof.LossRegion.lean ====
/-
  The per-row losses after the second region.

  The region has ONE point, whose blocks are the whole arrays: it loads the pooled [1024, 512] array and the 1024
  labels, and writes back all 1024 losses. The array after the region is the body's stored value of the two arrays
  the region reads.
-/
import proofs.«170635_j14654428414813_1_alg».proof.Proof.Gen.KernelIdeal.Frame
import Idealize.ShloMosaic.Lib.Pipeline.Value
import Idealize.ShloMosaic.PureOps.Ideal

set_option maxRecDepth 16384

noncomputable section

namespace Cert.Contrastive

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

private theorem zero1 : (![0] : Fin 1 → Nat) = fun _ => 0 := funext fun a => by fin_cases a <;> rfl
private theorem zero2 : (![0, 0] : Fin 2 → Nat) = fun _ => 0 := funext fun a => by fin_cases a <;> rfl

/-- Every window of the one point sits at block 0. -/
theorem lossIdx : ∀ t : Fin cfg1.N, win1_0.index t (0 : Fin 2) = 0 ∧ win1_0.index t (1 : Fin 2) = 0
    ∧ win1_1.index t (0 : Fin 1) = 0 ∧ win1_2.index t (0 : Fin 1) = 0 :=
  (by decide +kernel : ∀ t : Fin grid1.N, _)

/-- The stored value depends only on the loaded arrays' entries and on the index's coordinate. -/
theorem lossPay_congr (x0 a0 : Vec Ideal S1024x512 .f32) (x1 a1 : Vec Ideal S1024 .i32)
    (h0 : ∀ y, x0 y = a0 y) (h1 : ∀ y, x1 y = a1 y) (y i : S1024.Idx) (hy : ∀ a, (y a).val = (i a).val) :
    k1_pay1 (F := Ideal) x0 x1 y = k1_pay1 (F := Ideal) a0 a1 i := by
  have e0 : x0 = a0 := funext h0
  have e1 : x1 = a1 := funext h1
  have ey : y = i := funext fun a => Fin.ext (hy a)
  rw [e0, e1, ey]

/-- What the one point writes back is the whole block of the body's value of the arrays the region reads. -/
theorem loss_flushed (c : Dev nD) (t : Fin cfg1.N) :
    (dat1 V c).flushed 2 t
      = ((cfg1.win 2).blk t).view.read (Elt Ideal) (k1_pay1 (F := Ideal) (V c main_v1) (V c main_arg1)) := by
  show (cfg1.win 2).cut (grid1.coords t) ((dat1 V c).after 2 t) = _
  rw [after1_2]
  unfold out1_2
  rw [View.canon_unit_zero zero1]
  simp only [View.ld_unit_zero (S := S1024x512) zero2, View.ld_unit_zero (S := S1024) zero1]
  obtain ⟨e0, e1, e2, e3⟩ := lossIdx t
  funext j
  show k1_pay1 (iblk1 V c 0 t) (iblk1 V c 1 t) j
    = k1_pay1 (V c main_v1) (V c main_arg1) (((cfg1.win 2).blk t).view.emb j)
  refine lossPay_congr _ _ _ _ (fun y => ?_) (fun y => ?_) _ _ (fun a => ?_)
  · show V c main_v1 (((cfg1.win 0).blk t).view.emb y) = V c main_v1 y
    refine congrArg _ (funext fun a => Fin.ext ?_)
    match a with
    | ⟨0, _⟩ => show win1_0.index t (0 : Fin 2) * 1024 + 1 * (y 0).val = (y 0).val; omega
    | ⟨1, _⟩ => show win1_0.index t (1 : Fin 2) * 512 + 1 * (y 1).val = (y 1).val; omega
  · show V c main_arg1 (((cfg1.win 1).blk t).view.emb y) = V c main_arg1 y
    refine congrArg _ (funext fun a => Fin.ext ?_)
    match a with
    | ⟨0, _⟩ => show win1_1.index t (0 : Fin 1) * 1024 + 1 * (y 0).val = (y 0).val; omega
  · match a with
    | ⟨0, _⟩ => show (j 0).val = win1_2.index t (0 : Fin 1) * 1024 + 1 * (j 0).val; omega

/-- An index of the losses lies in the point's block iff its coordinate lies in the block's range. -/
theorem loss_mem (t : Fin cfg1.N) (i : S1024.Idx) :
    i ∈ ((cfg1.win 2).blk t).view.set ↔ ∀ a : Fin 1, win1_2.index t a * S1024.size a ≤ (i a).val
      ∧ (i a).val < win1_2.index t a * S1024.size a + S1024.size a := by
  show i ∈ ((View.whole main_v2).slice (win1_2.rect t)).set ↔ _
  rw [View.set_slice_whole, Rect.mem_set_unit]
  exact Iff.rfl

/-- The one point covers every row. -/
theorem loss_cover (i : S1024.Idx) :
    ∃ t : Fin cfg1.N, (cfg1.win 2).flush t = true ∧ i ∈ ((cfg1.win 2).blk t).view.set := by
  have hi : (i 0).val < 1024 := (i 0).isLt
  refine ⟨t1_0, flush1_2 _, ?_⟩
  rw [loss_mem]
  obtain ⟨-, -, -, e3⟩ := lossIdx t1_0
  intro a
  match a with
  | ⟨0, _⟩ =>
    show win1_2.index t1_0 (0 : Fin 1) * 1024 ≤ (i 0).val ∧ (i 0).val < win1_2.index t1_0 (0 : Fin 1) * 1024 + 1024
    omega

/-- The losses after the region. -/
theorem loss_array (c : Dev nD) :
    (dat1 V c).arrAt 2 cfg1.N = k1_pay1 (F := Ideal) (V c main_v1) (V c main_arg1) :=
  (dat1 V c).arrAt_eq_of_cover 2 (k1_pay1 (F := Ideal) (V c main_v1) (V c main_arg1))
    (fun t _ => loss_flushed V c t) loss_cover

end Cert.Contrastive

end
-- ==== Proof.Fold.lean ====
/-
  The kernel program's result as a function of its two arguments.

  @main is: a reshape of the features that lays each 8 × 8 tile out as 64 lanes; the pooling region; the loss region;
  then the sum of the 1024 losses over 1024. Reading the buffers' contents back boundary by boundary — the last host
  stretch from the loss region's exit, that region's output from the arrays it entered with, the pooled array from
  the pooling region's output, the laid-out features from the reshape — gives the result buffer as the mean of the
  loss kernel's value of (the pooling kernel's value of the laid-out features) and the labels.
-/
import proofs.«170635_j14654428414813_1_alg».proof.Proof.Gen.KernelIdeal.Frame
import proofs.«170635_j14654428414813_1_alg».proof.Proof.PoolRegion
import proofs.«170635_j14654428414813_1_alg».proof.Proof.LossRegion
import Idealize.ShloMosaic.Lib.StableHlo.Run

set_option maxRecDepth 16384

noncomputable section

namespace Cert.Contrastive

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The features with each tile laid out as 64 lanes: what the pooling region finds. -/
theorem entry_features (c : Dev nD) :
    V1 m ρ c main_v0 = shapeCast S1024x512x64 (m ((c : Thread nD τ).loc main_arg0))
      Cert.KernelIdeal.Facts₀.shapeCasts_S1024x512x8x8_S1024x512x64 := by
  show StableHlo.after hostOps0 (W0 m ρ c) (Proc.devRef .tc main_v0) = _
  after_results
  rfl

/-- The labels reach the loss region as launched: nothing before it writes them. -/
theorem entry_labels (c : Dev nD) : V2 m ρ c main_arg1 = m ((c : Thread nD τ).loc main_arg1) := by
  show W2 m ρ c (Proc.devRef .tc main_arg1) = _
  rw [W2_of_ne m ρ c main_arg1 (by decide)]
  show StableHlo.after hostOps0 (W0 m ρ c) (Proc.devRef .tc main_arg1) = _
  after_results

/-- The pooled array the loss region finds is the pooling region's output. -/
theorem entry_pooled (c : Dev nD) : V2 m ρ c main_v1 = pooledLanes (V1 m ρ c main_v0) :=
  (W2_arr m ρ c 1).trans (pool_array (V1 m ρ) c)

/-- The losses at the loss region's exit. -/
theorem exit_losses (c : Dev nD) :
    W3 m ρ c (Proc.devRef .tc main_v2) = k1_pay1 (F := Ideal) (V2 m ρ c main_v1) (V2 m ρ c main_arg1) :=
  (W3_arr m ρ c 2).trans (loss_array (V2 m ρ) c)

/-- The result buffer after the last host stretch: the losses' sum from zero, over 1024. -/
theorem tail_result (c : Dev nD) :
    W4 m ρ c (Proc.devRef .tc main_v4)
      = Host.divf (Host.reduceAdd (W3 m ρ c (Proc.devRef .tc main_v2)) (constant (F := Ideal) S_ .f32 0x00000000#32)
          Cert.KernelIdeal.Facts₀.reducesTo_S1024_S_d0 Cert.KernelIdeal.Facts₀.h_S_)
          (constant (F := Ideal) S_ .f32 0x44800000#32) := by
  show StableHlo.after hostOps2 (W3 m ρ c) (Proc.devRef .tc main_v4) = _
  after_results

/-- The result buffer as a function of the two arguments. -/
theorem kernel_result (c : Dev nD) :
    W4 m ρ c (Proc.devRef .tc main_v4)
      = Host.divf (Host.reduceAdd
          (k1_pay1 (F := Ideal)
            (pooledLanes (shapeCast S1024x512x64 (m ((c : Thread nD τ).loc main_arg0))
              Cert.KernelIdeal.Facts₀.shapeCasts_S1024x512x8x8_S1024x512x64))
            (m ((c : Thread nD τ).loc main_arg1)))
          (constant (F := Ideal) S_ .f32 0x00000000#32)
          Cert.KernelIdeal.Facts₀.reducesTo_S1024_S_d0 Cert.KernelIdeal.Facts₀.h_S_)
          (constant (F := Ideal) S_ .f32 0x44800000#32) := by
  rw [tail_result, exit_losses, entry_pooled, entry_labels, entry_features]

end Cert.Contrastive

end
-- ==== Proof.PoolSum.lean ====
/-
  The sum over an 8 × 8 spatial tile as ONE sum over its 64 row-major positions.

  The reference sums a [1024, 512, 8, 8] array over its two spatial axes at once; the kernel first lays each tile out
  as 64 lanes and sums the lanes. Position `k` of the tile is `(k / 8, k % 8)`, and the source indices that reduce
  to `(b, c)` are exactly the 64 indices `(b, c, k / 8, k % 8)`, each once.
-/
import Idealize.ShloMosaic.PureOps.Ideal.Laws
import Idealize.ShloMosaic.Lib.ValueIdx

noncomputable section

namespace Cert.Contrastive

open Idealize.ShloMosaic Idealize.ShloMosaic.ValueIdx

/-- The features' shape and the pooled shape. -/
abbrev SX : Shape := ⟨4, ![1024, 512, 8, 8]⟩
abbrev SP : Shape := ⟨2, ![1024, 512]⟩

/-- Position `k` of sample `b`, channel `c`'s tile, rows first. -/
abbrev tileIdx (b : Fin 1024) (c : Fin 512) (k : Fin 64) : SX.Idx :=
  ix4 b c ⟨k.val / 8, by omega⟩ ⟨k.val % 8, by omega⟩

/-- A source index reduces to `(b, c)` exactly when its first two coordinates are `b` and `c`. -/
theorem drop_eq_iff (h' : SX.ReducesTo [2, 3] SP) (i : SX.Idx) (b : Fin 1024) (c : Fin 512) :
    h'.drop i = ix2 b c ↔ (i 0).val = b.val ∧ (i 1).val = c.val := by
  have e0 : (h'.drop i 0 : Nat) = i 0 := Shape.ReducesTo.drop_apply_val_of_eq h' i 0 0
  have e1 : (h'.drop i 1 : Nat) = i 1 := Shape.ReducesTo.drop_apply_val_of_eq h' i 1 1
  constructor
  · intro h
    refine ⟨?_, ?_⟩
    · rw [← e0, h]
    · rw [← e1, h]
  · rintro ⟨h0, h1⟩
    funext a
    apply Fin.ext
    match a with
    | ⟨0, _⟩ => exact e0.trans h0
    | ⟨1, _⟩ => exact e1.trans h1

/-- The host's sum over the two spatial axes, at `(b, c)`: the initial value plus the sum over the tile's 64 positions. -/
theorem hostReduceAdd_tile (h' : SX.ReducesTo [2, 3] SP) (x : SX.Idx → EReal) (init : EReal) (b : Fin 1024) (c : Fin 512) :
    Ideal.hostReduceAdd h' x init (ix2 b c) = init + ∑ k : Fin 64, x (tileIdx b c k) := by
  unfold Ideal.hostReduceAdd
  congr 1
  have back : ∀ i : SX.Idx, (i 0).val = b.val → (i 1).val = c.val →
      ∀ (hk : (i 2).val * 8 + (i 3).val < 64), tileIdx b c ⟨(i 2).val * 8 + (i 3).val, hk⟩ = i := by
    intro i h0 h1 hk
    have h2 : (i 2).val < 8 := (i 2).isLt
    have h3 : (i 3).val < 8 := (i 3).isLt
    funext a
    apply Fin.ext
    match a with
    | ⟨0, _⟩ => exact h0.symm
    | ⟨1, _⟩ => exact h1.symm
    | ⟨2, _⟩ => show ((i 2).val * 8 + (i 3).val) / 8 = (i 2).val; omega
    | ⟨3, _⟩ => show ((i 2).val * 8 + (i 3).val) % 8 = (i 3).val; omega
  have lt64 : ∀ i : SX.Idx, (i 2).val * 8 + (i 3).val < 64 := fun i => by
    have h2 : (i 2).val < 8 := (i 2).isLt
    have h3 : (i 3).val < 8 := (i 3).isLt
    omega
  refine Finset.sum_nbij' (fun i => (⟨(i 2).val * 8 + (i 3).val, lt64 i⟩ : Fin 64)) (fun k => tileIdx b c k) ?_ ?_ ?_ ?_ ?_
  · intro i _; exact Finset.mem_univ _
  · intro k _
    rw [Finset.mem_filter]
    exact ⟨Finset.mem_univ _, (drop_eq_iff h' _ b c).mpr ⟨rfl, rfl⟩⟩
  · intro i hi
    rw [Finset.mem_filter] at hi
    obtain ⟨h0, h1⟩ := (drop_eq_iff h' i b c).mp hi.2
    exact back i h0 h1 _
  · intro k _
    apply Fin.ext
    show k.val / 8 * 8 + k.val % 8 = k.val
    omega
  · intro i hi
    rw [Finset.mem_filter] at hi
    obtain ⟨h0, h1⟩ := (drop_eq_iff h' i b c).mp hi.2
    exact congrArg x (back i h0 h1 _).symm

end Cert.Contrastive

end
-- ==== Proof.LossSpec.lean ====
/-
  The contrastive loss, entry by entry, on the extended reals.

  `pooled x` is the spatial mean of the features: at sample `b` and channel `c` the sum of the 8 × 8 tile over 64.
  From a pooled array `f`, row `p` is scaled by `max (‖f p‖, ε)` (`rowScale`), the similarity of rows `p` and `q` is the
  inner product of the scaled rows (`sim`), `expSim` is its exponential at temperature 1/2, and the loss of row `p` is
  minus the logarithm of the share of `∑ q, expSim p q` carried by the `q` whose label equals `p`'s (`lossRow`).
  Both programs compute these; they differ only in how the two quotients and the negation are spelt.
-/
import Idealize.ShloMosaic.PureOps.Ideal.Laws
import Idealize.ShloMosaic.Lib.ValueIdx
import proofs.«170635_j14654428414813_1_alg».proof.Proof.PoolSum

noncomputable section

namespace Cert.Contrastive

open Idealize.ShloMosaic Idealize.ShloMosaic.ValueIdx

/-- The labels' shape. -/
abbrev SL : Shape := ⟨1, ![1024]⟩

/-- The spatial mean: the tile's sum over 64. -/
def pooled (x : SX.Idx → EReal) : SP.Idx → EReal := fun i =>
  Ideal.div (∑ k : Fin 64, x (tileIdx (i 0) (i 1) k)) (Ideal.ofBits .f32 0x42800000#32)

theorem pooled_apply (x : SX.Idx → EReal) (b : Fin 1024) (c : Fin 512) :
    pooled x (ix2 b c) = Ideal.div (∑ k : Fin 64, x (tileIdx b c k)) (Ideal.ofBits .f32 0x42800000#32) := rfl

/-- Row `p`'s Euclidean norm, clamped below by ε. -/
def rowScale (f : SP.Idx → EReal) (p : Fin 1024) : EReal :=
  max (Ideal.sqrt (∑ k : Fin 512, f (ix2 p k) * f (ix2 p k))) (Ideal.ofBits .f32 0x322BCC77#32)

/-- Entry `k` of row `p` over the row's clamped norm. -/
def unitRow (f : SP.Idx → EReal) (p : Fin 1024) (k : Fin 512) : EReal :=
  Ideal.div (f (ix2 p k)) (rowScale f p)

/-- The cosine similarity of rows `p` and `q`. -/
def sim (f : SP.Idx → EReal) (p q : Fin 1024) : EReal :=
  ∑ k : Fin 512, unitRow f p k * unitRow f q k

/-- Its exponential at temperature 1/2. -/
def expSim (f : SP.Idx → EReal) (p q : Fin 1024) : EReal :=
  Ideal.exp (Ideal.div (sim f p q) (Ideal.ofBits .f32 0x3F000000#32))

/-- Row `p`'s loss: minus the logarithm of the positives' share of the row's total. -/
def lossRow (f : SP.Idx → EReal) (lab : SL.Idx → BitVec 32) (p : Fin 1024) : EReal :=
  -(Ideal.log (Ideal.div
      (∑ q : Fin 1024, Scalar.select (IntOp.cmpi .eq (lab (ix1 p)) (lab (ix1 q))) (expSim f p q) 0)
      (∑ q : Fin 1024, expSim f p q)))

end Cert.Contrastive

end
-- ==== Proof.Scalars.lean ====
/-
  The constants of the contrastive loss as the reals they denote, and the three scalar identities on the
  extended reals that separate the two programs.

  The kernel multiplies where the reference divides: the spatial mean is the tile's sum times 2⁻⁶ against the sum
  over 64, and the similarity is scaled by 2 against a division by the temperature 1/2. Both divisors are nonzero
  reals, so on EVERY extended real the quotient is the product with the reciprocal: no finiteness is used. The
  kernel also writes the negated logarithm as 0 minus it.
-/
import Idealize.ShloMosaic.PureOps.Ideal

noncomputable section

namespace Cert.Contrastive

open Idealize.ShloMosaic

/-- The word of 64.0 denotes the real 64. -/
theorem ofBits_64 : Ideal.ofBits .f32 0x42800000#32 = ((64 : ℝ) : EReal) := by
  simp [Ideal.ofBits, Ideal.ieee, -EReal.coe_mul]; norm_num

/-- The word of 0.015625 denotes the real 1/64 exactly (a power of two). -/
theorem ofBits_inv64 : Ideal.ofBits .f32 0x3C800000#32 = ((1 / 64 : ℝ) : EReal) := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- A sum times 2⁻⁶ is that sum over 64, on every extended real. -/
theorem mul_inv64_eq_div64 (a : EReal) :
    a * Ideal.ofBits .f32 0x3C800000#32 = Ideal.div a (Ideal.ofBits .f32 0x42800000#32) := by
  rw [ofBits_64, ofBits_inv64, Ideal.div_coe (by norm_num : (64 : ℝ) ≠ 0)]

/-- A similarity times 2 is that similarity over the temperature 1/2, on every extended real. -/
theorem mul_two_eq_div_half (a : EReal) :
    a * Ideal.ofBits .f32 0x40000000#32 = Ideal.div a (Ideal.ofBits .f32 0x3F000000#32) := by
  rw [ofBits_two, ofBits_half, Ideal.div_coe (by norm_num : (1 / 2 : ℝ) ≠ 0)]
  norm_num

/-- Zero minus a value is its negation. -/
theorem zero_sub_eq_neg (y : EReal) : (0 : EReal) - y = -y := by
  rw [sub_eq_add_neg, zero_add]

end Cert.Contrastive

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LossKernel.lean ====
/-
  The loss kernel's stored value, entry by entry: row `p` of what it writes is `lossRow` of its two loaded arrays.
-/
import proofs.«170635_j14654428414813_1_alg».proof.Proof.Gen.KernelIdeal.Skeleton
import proofs.«170635_j14654428414813_1_alg».proof.Proof.LossSpec
import proofs.«170635_j14654428414813_1_alg».proof.Proof.Scalars
import proofs.«170635_j14654428414813_1_alg».proof.Proof.LibDot
import Idealize.ShloMosaic.Lib.Pipeline.Value
import Idealize.ShloMosaic.Lib.ValueLayout

noncomputable section

namespace Cert.Contrastive

open Idealize.ShloMosaic Idealize.ShloMosaic.ValueIdx Cert.KernelIdeal Cert.KernelIdeal.Gen

/-- A sum along the lanes of a two-axis array, read at row `p`. -/
private theorem laneSum_apply {N : ℕ} (x : FVec Ideal ⟨2, ![1024, N]⟩ .f32) (h : Shape.Reduces ⟨2, ![1024, N]⟩ [1] S1024)
    (hφ : FKind.Formats .f32) (hacc : (0x00000000#32 : BitVec 32) = FKind.add.neutral .f32 hφ) (p : Fin 1024) :
    multiReduction (F := Ideal) .add [1] S1024 x 0x00000000#32 h hφ hacc (ix1 p) = ∑ k : Fin N, x (ix2 p k) := by
  refine (Ideal.multiReduction_add_single x _ h hφ hacc (ix1 p)).trans ?_
  exact Finset.sum_congr rfl fun k _ => congrArg x (funext fun a => Fin.ext (by
    match a with
    | ⟨0, _⟩ => rfl
    | ⟨1, _⟩ => rfl))

section Layout
variable {α : Type}

/-- A column cut from a one-axis array: entry `(p, 0)` is entry `p`. -/
private theorem colCast_apply (v : S1024.Idx → α) (h : S1024.ShapeCasts S1024x1) (p : Fin 1024) :
    shapeCast S1024x1 v h (ix2 p 0) = v (ix1 p) := by
  refine shapeCast_apply v h (ix2 p 0) (ix1 p) ?_
  rw [Shape.rowMajor_val_one, Shape.rowMajor_val_two]
  show p.val = p.val * 1 + 0
  omega

/-- A row cut from a one-axis array: entry `(0, q)` is entry `q`. -/
private theorem rowCast_apply (v : S1024.Idx → α) (h : S1024.ShapeCasts S1x1024) (q : Fin 1024) :
    shapeCast S1x1024 v h (ix2 0 q) = v (ix1 q) := by
  refine shapeCast_apply v h (ix2 0 q) (ix1 q) ?_
  rw [Shape.rowMajor_val_one, Shape.rowMajor_val_two]
  show q.val = 0 * 1024 + q.val
  omega

/-- A column repeated along the lanes: entry `(p, k)` is the column's entry `p`. -/
private theorem colBroadcast_apply {N : ℕ} (v : S1024x1.Idx → α) (h : S1024x1.Broadcasts ⟨2, ![1024, N]⟩) (p : Fin 1024) (k : Fin N) :
    broadcastTo ⟨2, ![1024, N]⟩ v h (ix2 p k) = v (ix2 p 0) := by
  refine broadcastTo_apply v h (ix2 p k) (ix2 p 0) fun a => ?_
  match a with
  | ⟨0, _⟩ => rfl
  | ⟨1, _⟩ => rfl

/-- A row repeated along the sublanes: entry `(p, q)` is the row's entry `q`. -/
private theorem rowBroadcast_apply (v : S1x1024.Idx → α) (h : S1x1024.Broadcasts S1024x1024) (p q : Fin 1024) :
    broadcastTo S1024x1024 v h (ix2 p q) = v (ix2 0 q) := by
  refine broadcastTo_apply v h (ix2 p q) (ix2 0 q) fun a => ?_
  match a with
  | ⟨0, _⟩ => rfl
  | ⟨1, _⟩ => rfl

/-- The transposed array at `(k, q)` is the array at `(q, k)`. -/
private theorem transpose_ix2 (v : S1024x512.Idx → α) (h : S1024x512.Transposes [1, 0] S512x1024) (k : Fin 512) (q : Fin 1024) :
    transpose S512x1024 [1, 0] v h (ix2 k q) = v (ix2 q k) := by
  refine transpose_apply [1, 0] v h (ix2 k q) (ix2 q k) fun b => ?_
  match b with
  | ⟨0, _⟩ => rfl
  | ⟨1, _⟩ => rfl

end Layout

/-- Row `p` over its clamped norm, entry `k`: the kernel's scaled array is `unitRow`. -/
private theorem scaled_apply (f : FVec Ideal S1024x512 .f32) (h1 : S1024x512.Reduces [1] S1024) (hφ : FKind.Formats .f32)
    (hacc : (0x00000000#32 : BitVec 32) = FKind.add.neutral .f32 hφ) (h2 : S1024.ShapeCasts S1024x1)
    (h3 : S1024x1.Broadcasts S1024x512) (p : Fin 1024) (k : Fin 512) :
    divf f (broadcastTo S1024x512
        (maximumf (sqrt (shapeCast S1024x1 (multiReduction (F := Ideal) .add [1] S1024 (mulf f f) 0x00000000#32 h1 hφ hacc) h2))
          (broadcast S1024x1 (FloatOps.ofBits .f32 0x322BCC77#32))) h3) (ix2 p k)
      = unitRow f p k := by
  rw [divf_apply, colBroadcast_apply, maximumf_apply, broadcast_apply]
  show Ideal.div (f (ix2 p k)) (max (Ideal.sqrt (shapeCast S1024x1 _ h2 (ix2 p 0))) (Ideal.ofBits .f32 0x322BCC77#32)) = _
  rw [colCast_apply, laneSum_apply]
  rfl

/-- The product of an array with its own transpose into a zero accumulator, doubled and exponentiated, at `(p, q)`:
    the exponential of the rows' inner product over the temperature 1/2. The narrowing to bf16 is the identity on
    extended reals. -/
private theorem expGram_apply (u : FVec Ideal S1024x512 .f32) (hb : FTy.bits .bf16 < FTy.bits .f32)
    (ht : S1024x512.Transposes [1, 0] S512x1024) (p q : Fin 1024) :
    exp (mulf
        (matmul dot_S1024x512_S512x1024_S1024x1024_1_0_0_1_n_n none (truncf .bf16 u hb)
          (transpose S512x1024 [1, 0] (truncf .bf16 u hb) ht) (constant S1024x1024 .f32 0x00000000#32))
        (broadcast S1024x1024 (FloatOps.ofBits .f32 0x40000000#32))) (ix2 p q)
      = Ideal.exp (Ideal.div (∑ k : Fin 512, u (ix2 p k) * u (ix2 q k)) (Ideal.ofBits .f32 0x3F000000#32)) := by
  show Ideal.exp (FloatOps.matmul (DotDims.plain 1024 512 1024) none (truncf .bf16 u hb)
      (transpose S512x1024 [1, 0] (truncf .bf16 u hb) ht) (constant S1024x1024 .f32 0x00000000#32) (ix2 p q)
        * Ideal.ofBits .f32 0x40000000#32) = _
  rw [Cert.GNN.matmul_plain_zero_apply, mul_two_eq_div_half]
  refine congrArg (fun z => Ideal.exp (Ideal.div z _)) (Finset.sum_congr rfl fun k _ => ?_)
  rw [transpose_ix2]
  rfl

/-- The labels compared pairwise: entry `(p, q)` compares label `p` with label `q`. -/
private theorem sameLabel_apply (lab : IVec S1024 32) (hc : S1024.ShapeCasts S1024x1) (hr : S1024.ShapeCasts S1x1024)
    (hbc : S1024x1.Broadcasts S1024x1024) (hbr : S1x1024.Broadcasts S1024x1024) (p q : Fin 1024) :
    cmpi .eq (broadcastTo S1024x1024 (shapeCast S1024x1 lab hc) hbc) (broadcastTo S1024x1024 (shapeCast S1x1024 lab hr) hbr) (ix2 p q)
      = IntOp.cmpi .eq (lab (ix1 p)) (lab (ix1 q)) := by
  show IntOp.cmpi .eq (broadcastTo S1024x1024 (shapeCast S1024x1 lab hc) hbc (ix2 p q))
      (broadcastTo S1024x1024 (shapeCast S1x1024 lab hr) hbr (ix2 p q)) = _
  rw [colBroadcast_apply, rowBroadcast_apply, colCast_apply, rowCast_apply]

/-- The exponentiated similarity the kernel forms from the features is `expSim`. -/
private theorem expSim_kernel (f : FVec Ideal S1024x512 .f32) (h1 : S1024x512.Reduces [1] S1024) (hφ : FKind.Formats .f32)
    (hacc : (0x00000000#32 : BitVec 32) = FKind.add.neutral .f32 hφ) (h2 : S1024.ShapeCasts S1024x1)
    (h3 : S1024x1.Broadcasts S1024x512) (p q : Fin 1024) :
    Ideal.exp (Ideal.div (∑ k : Fin 512,
        divf f (broadcastTo S1024x512
          (maximumf (sqrt (shapeCast S1024x1 (multiReduction (F := Ideal) .add [1] S1024 (mulf f f) 0x00000000#32 h1 hφ hacc) h2))
            (broadcast S1024x1 (FloatOps.ofBits .f32 0x322BCC77#32))) h3) (ix2 p k)
        * divf f (broadcastTo S1024x512
          (maximumf (sqrt (shapeCast S1024x1 (multiReduction (F := Ideal) .add [1] S1024 (mulf f f) 0x00000000#32 h1 hφ hacc) h2))
            (broadcast S1024x1 (FloatOps.ofBits .f32 0x322BCC77#32))) h3) (ix2 q k)) (Ideal.ofBits .f32 0x3F000000#32))
      = expSim f p q := by
  refine congrArg (fun z => Ideal.exp (Ideal.div z _)) (Finset.sum_congr rfl fun k _ => ?_)
  rw [scaled_apply, scaled_apply]

/-- Row `p` of the kernel's stored value: zero minus the logarithm of the masked row sum over the full row sum of the
    exponentiated similarities, which is `lossRow`. -/
theorem lossPay_apply (f : Vec Ideal S1024x512 .f32) (lab : Vec Ideal S1024 .i32) (p : Fin 1024) :
    k1_pay1 (F := Ideal) f lab (ix1 p) = lossRow f lab p := by
  unfold k1_pay1
  simp only [shapeCast_self]
  rw [subf_apply, broadcast_apply]
  show Ideal.ofBits .f32 0x00000000#32 - Ideal.log (Ideal.div (multiReduction (F := Ideal) .add [1] S1024 _ _ _ _ _ (ix1 p)) (multiReduction (F := Ideal) .add [1] S1024 _ _ _ _ _ (ix1 p))) = _
  rw [Ideal.ofBits_zero_f32, zero_sub_eq_neg]
  refine congrArg (fun z => -Ideal.log z) (congrArg₂ Ideal.div
    ((laneSum_apply _ _ _ _ p).trans (Finset.sum_congr rfl fun q _ => ?_))
    ((laneSum_apply _ _ _ _ p).trans (Finset.sum_congr rfl fun q _ => ?_)))
  · exact congr (congrArg₂ Scalar.select (sameLabel_apply lab _ _ _ _ p q)
      ((expGram_apply _ _ _ p q).trans (expSim_kernel f _ _ _ _ _ p q))) Ideal.ofBits_zero_f32
  · exact (expGram_apply _ _ _ p q).trans (expSim_kernel f _ _ _ _ _ p q)

end Cert.Contrastive

end
-- ==== Proof.LossRef.lean ====
/-
  The reference, stage by stage: its pooled array is `pooled` of the features, and row `p` of its negated logarithm is
  `lossRow` of that pooled array and the labels.
-/
import proofs.«170635_j14654428414813_1_alg».proof.Proof.Gen.ReferenceIdeal.Read
import proofs.«170635_j14654428414813_1_alg».proof.Proof.LossSpec
import Idealize.ShloMosaic.Lib.Pipeline.Value

noncomputable section

namespace Cert.Contrastive

open Idealize.ShloMosaic Idealize.ShloMosaic.ValueIdx Cert.ReferenceIdeal Cert.ReferenceIdeal.Read

theorem refPooled (x0 : (⟨S1024x512x8x8, .f32⟩ : BufTy).Contents (Elt Ideal)) :
    val_main_v2 (F := Ideal) x0 = pooled x0 := by
  funext i
  obtain ⟨b, c, rfl⟩ : ∃ b c, i = ix2 b c := ⟨i 0, i 1, eq_ix2 i⟩
  rw [val_main_v2_apply, val_main_v1_apply, val_main_cst_0_apply, pooled_apply]
  unfold val_main_v0
  simp only [Host.reduceAdd, Ideal.hostReduceAdd_def]
  rw [hostReduceAdd_tile, val_main_cst_apply, Ideal.hostDivf_def, Ideal.ofBits_def, Ideal.ofBits_def,
    Ideal.ofBits_zero_f32, zero_add]

/-! ### The composed index maps of the reference's layout operations, at row and column coordinates -/

private theorem idx_call0_v1 (p : Fin 1024) (k : Fin 512) : idx_main_call0_v1 (ix1 p) k = ix2 p k :=
  funext fun a => Fin.ext (by match a with | ⟨0, _⟩ => rfl | ⟨1, _⟩ => rfl)

private theorem idx_call0_v2 (p : Fin 1024) (z : Fin 1) : idx_main_call0_v2 (ix2 p z) = ix1 p :=
  funext fun a => Fin.ext (by match a with | ⟨0, _⟩ => rfl)

private theorem idx_v6 (p : Fin 1024) (k : Fin 512) : idx_main_v6 (ix2 p k) = ix2 p (0 : Fin 1) :=
  funext fun a => Fin.ext (by match a with | ⟨0, _⟩ => rfl | ⟨1, _⟩ => rfl)

private theorem idx_v8 (k : Fin 512) (q : Fin 1024) : idx_main_v8 (ix2 k q) = ix2 q k :=
  funext fun a => Fin.ext (by match a with | ⟨0, _⟩ => rfl | ⟨1, _⟩ => rfl)

private theorem lidx_v9 (p q : Fin 1024) (k : Fin 512) : lidx_main_v9 (ix2 p q) k = ix2 p k :=
  funext fun a => Fin.ext (by match a with | ⟨0, _⟩ => rfl | ⟨1, _⟩ => rfl)

private theorem ridx_v9 (p q : Fin 1024) (k : Fin 512) : ridx_main_v9 (ix2 p q) k = ix2 k q :=
  funext fun a => Fin.ext (by match a with | ⟨0, _⟩ => rfl | ⟨1, _⟩ => rfl)

private theorem idx_v13 (p : Fin 1024) (z : Fin 1) : idx_main_v13 (ix2 p z) = ix1 p :=
  funext fun a => Fin.ext (by match a with | ⟨0, _⟩ => rfl)

private theorem idx_v14 (z : Fin 1) (q : Fin 1024) : idx_main_v14 (ix2 z q) = ix1 q :=
  funext fun a => Fin.ext (by match a with | ⟨0, _⟩ => rfl)

private theorem idx_v15 (p q : Fin 1024) : idx_main_v15 (ix2 p q) = ix2 p (0 : Fin 1) :=
  funext fun a => Fin.ext (by match a with | ⟨0, _⟩ => rfl | ⟨1, _⟩ => rfl)

private theorem idx_v16 (p q : Fin 1024) : idx_main_v16 (ix2 p q) = ix2 (0 : Fin 1) q :=
  funext fun a => Fin.ext (by match a with | ⟨0, _⟩ => rfl | ⟨1, _⟩ => rfl)

private theorem idx_v19 (p q : Fin 1024) : idx_main_v19 (ix1 p) q = ix2 p q :=
  funext fun a => Fin.ext (by match a with | ⟨0, _⟩ => rfl | ⟨1, _⟩ => rfl)

private theorem idx_v20 (p q : Fin 1024) : idx_main_v20 (ix1 p) q = ix2 p q :=
  funext fun a => Fin.ext (by match a with | ⟨0, _⟩ => rfl | ⟨1, _⟩ => rfl)

/-! ### The reference's stages over its pooled array -/

/-- The clamped norm of row `p`, as the reference computes it. -/
private theorem ref_scale (x0 : (⟨S1024x512x8x8, .f32⟩ : BufTy).Contents (Elt Ideal)) (p : Fin 1024) :
    val_main_v5 (F := Ideal) x0 (ix2 p (0 : Fin 1)) = rowScale (val_main_v2 (F := Ideal) x0) p := by
  rw [val_main_v5_apply, val_main_v3_apply, val_main_call0_v2_apply, idx_call0_v2, val_main_call0_v1_apply,
    val_main_call0_cst_apply, val_main_v4_apply, val_main_cst_1_apply]
  simp only [idx_call0_v1, val_main_call0_v0_apply, Ideal.mulf_def, Ideal.maximumf_def, Ideal.hostUnary_sqrt_def,
    Ideal.ofBits_def, Ideal.ofBits_zero_f32, zero_add]
  rfl

/-- Entry `k` of the scaled row `p`. -/
private theorem ref_unit (x0 : (⟨S1024x512x8x8, .f32⟩ : BufTy).Contents (Elt Ideal)) (p : Fin 1024) (k : Fin 512) :
    val_main_v7 (F := Ideal) x0 (ix2 p k) = unitRow (val_main_v2 (F := Ideal) x0) p k := by
  rw [val_main_v7_apply, val_main_v6_apply, idx_v6, ref_scale, Ideal.hostDivf_def]
  rfl

/-- The inner product of the scaled rows `p` and `q`. -/
private theorem ref_sim (x0 : (⟨S1024x512x8x8, .f32⟩ : BufTy).Contents (Elt Ideal)) (p q : Fin 1024) :
    val_main_v9 (F := Ideal) x0 (ix2 p q) = sim (val_main_v2 (F := Ideal) x0) p q := by
  rw [val_main_v9_apply]
  simp only [lidx_v9, ridx_v9, val_main_v8_apply, idx_v8, ref_unit]
  rfl

/-- Its exponential at temperature 1/2. -/
private theorem ref_exp (x0 : (⟨S1024x512x8x8, .f32⟩ : BufTy).Contents (Elt Ideal)) (p q : Fin 1024) :
    val_main_v12 (F := Ideal) x0 (ix2 p q) = expSim (val_main_v2 (F := Ideal) x0) p q := by
  rw [val_main_v12_apply, val_main_v11_apply, ref_sim, val_main_v10_apply, val_main_cst_2_apply,
    Ideal.hostUnary_exp_def, Ideal.hostDivf_def, Ideal.ofBits_def]
  rfl

/-- The label comparison at `(p, q)`. -/
private theorem ref_mask (x1 : (⟨S1024, .i32⟩ : BufTy).Contents (Elt Ideal)) (p q : Fin 1024) :
    val_main_v17 (F := Ideal) x1 (ix2 p q) = IntOp.cmpi .eq (x1 (ix1 p)) (x1 (ix1 q)) := by
  rw [val_main_v17_apply, val_main_v15_apply, idx_v15, val_main_v13_apply, idx_v13,
    val_main_v16_apply, idx_v16, val_main_v14_apply, idx_v14]

/-- The masked exponential at `(p, q)`. -/
private theorem ref_sel (x0 : (⟨S1024x512x8x8, .f32⟩ : BufTy).Contents (Elt Ideal))
    (x1 : (⟨S1024, .i32⟩ : BufTy).Contents (Elt Ideal)) (p q : Fin 1024) :
    val_main_v18 (F := Ideal) x0 x1 (ix2 p q) =
      Scalar.select (IntOp.cmpi .eq (x1 (ix1 p)) (x1 (ix1 q))) (expSim (val_main_v2 (F := Ideal) x0) p q) 0 := by
  rw [val_main_v18_apply, ref_mask, ref_exp, val_main_call1_v1_apply, val_main_call1_v0_apply, val_main_cst_3_apply,
    Ideal.ofBits_def, Ideal.ofBits_zero_f32]

theorem refLoss_apply (x0 : (⟨S1024x512x8x8, .f32⟩ : BufTy).Contents (Elt Ideal)) (x1 : (⟨S1024, .i32⟩ : BufTy).Contents (Elt Ideal)) (p : Fin 1024) :
    val_main_v23 (F := Ideal) x0 x1 (ix1 p) = lossRow (pooled x0) x1 p := by
  rw [val_main_v23_apply, val_main_v22_apply, val_main_v21_apply, val_main_v19_apply, val_main_v20_apply,
    val_main_cst_4_apply, val_main_cst_5_apply]
  simp only [idx_v19, idx_v20, ref_sel, ref_exp, Ideal.hostNegf_def, Ideal.negf_def, Ideal.hostUnary_log_def,
    Ideal.hostDivf_def, Ideal.ofBits_def, Ideal.ofBits_zero_f32, zero_add, refPooled]
  rfl

end Cert.Contrastive

end
-- ==== Proof.Bridge.lean ====
/-
  The two programs compute one function of the features and the labels.

  Pooling: the kernel program lays each 8 × 8 tile out as 64 lanes (a row-major reshape, so lane `k` is position
  `(k / 8, k % 8)`), sums the lanes and multiplies by 2⁻⁶; the reference sums the tile and divides by 64: the same
  pooled array. Losses: on that one pooled array and the labels both give `lossRow`, row by row. Both then take the
  sum of the 1024 losses from zero over 1024, by the same two host operations, which are never opened here.
-/
import proofs.«170635_j14654428414813_1_alg».proof.Proof.PoolPay
import proofs.«170635_j14654428414813_1_alg».proof.Proof.LossSpec
import proofs.«170635_j14654428414813_1_alg».proof.Proof.Scalars
import proofs.«170635_j14654428414813_1_alg».proof.Proof.LossKernel
import proofs.«170635_j14654428414813_1_alg».proof.Proof.LossRef
import Idealize.ShloMosaic.Lib.Pipeline.Value

noncomputable section

namespace Cert.Contrastive

open Idealize.ShloMosaic Idealize.ShloMosaic.ValueIdx

/-- Lane `k` of the laid-out row `(b, c)` is position `k` of the tile. -/
theorem lanes_eq_tile (x : SX.Idx → EReal) (h : SX.ShapeCasts Cert.KernelIdeal.S1024x512x64)
    (b : Fin 1024) (c : Fin 512) (k : Fin 64) :
    shapeCast Cert.KernelIdeal.S1024x512x64 x h (ix3 b c k) = x (tileIdx b c k) := by
  refine shapeCast_apply x h _ _ ?_
  rw [Shape.rowMajor_val_four, Shape.rowMajor_val_three]
  show ((b.val * 512 + c.val) * 8 + k.val / 8) * 8 + k.val % 8 = (b.val * 512 + c.val) * 64 + k.val
  omega

/-- The kernel program's pooled array is the reference's. -/
theorem pooledLanes_eq (x : SX.Idx → EReal) (h : SX.ShapeCasts Cert.KernelIdeal.S1024x512x64) :
    pooledLanes (shapeCast Cert.KernelIdeal.S1024x512x64 x h) = pooled x := by
  funext i
  obtain ⟨b, c, rfl⟩ : ∃ (b : Fin 1024) (c : Fin 512), i = ix2 b c := ⟨i 0, i 1, eq_ix2 i⟩
  show (∑ k : Fin 64, shapeCast Cert.KernelIdeal.S1024x512x64 x h (ix3 b c k)) * Ideal.ofBits .f32 0x3C800000#32
    = Ideal.div (∑ k : Fin 64, x (tileIdx b c k)) (Ideal.ofBits .f32 0x42800000#32)
  rw [mul_inv64_eq_div64]
  exact congrArg (Ideal.div · _) (Finset.sum_congr rfl fun k _ => lanes_eq_tile x h b c k)

/-- The kernel program's losses are the reference's negated logarithms, row by row. -/
theorem losses_eq (x0 : SX.Idx → EReal) (h : SX.ShapeCasts Cert.KernelIdeal.S1024x512x64) (x1 : SL.Idx → BitVec 32) :
    Cert.KernelIdeal.Gen.k1_pay1 (F := Ideal) (pooledLanes (shapeCast Cert.KernelIdeal.S1024x512x64 x0 h)) x1
      = Cert.ReferenceIdeal.Read.val_main_v23 (F := Ideal) x0 x1 := by
  funext i
  obtain ⟨p, rfl⟩ : ∃ p : Fin 1024, i = ix1 p := ⟨i 0, eq_ix1 i⟩
  rw [lossPay_apply, refLoss_apply, pooledLanes_eq]

end Cert.Contrastive

end
-- ==== Proof.lean ====
/-
  A contrastive loss over 1024 samples: the kernel program against its jnp reference, at the ideal values.

  Both programs pool the [1024, 512, 8, 8] features over their 8 × 8 tiles, scale each pooled row by its Euclidean norm
  clamped below by ε, form the 1024 × 1024 matrix of inner products, exponentiate it at temperature 1/2, and for each
  row take minus the logarithm of the share of the row's sum carried by the columns whose label equals the row's;
  the result is the mean of the 1024 losses.

  They differ in three spellings, none of which needs a finite input: the pooled mean is the tile's sum times 2⁻⁶
  against that sum over 64; the similarity is multiplied by 2 against divided by 1/2; the negation is 0 minus the
  logarithm against the negated logarithm. On the extended reals a quotient by a nonzero real IS the product with its
  reciprocal, and 0 − y is −y. The kernel program also sums each tile as 64 lanes of a row-major reshape where the
  reference sums over the two spatial axes: one sum, re-indexed; and its product of the scaled rows with their
  transpose into a zero accumulator is the reference's dot product, entry by entry.

  The kernel program's result is read off its run boundary by boundary (Proof/KernelRun.lean, Proof/Fold.lean): the
  pooling region's 16 blocks tile the pooled array (Proof/PoolRegion.lean), the loss region's one block is the whole
  array of losses (Proof/LossRegion.lean). The reference's result is its generated run, read stage by stage
  (Proof/LossRef.lean). Proof/Bridge.lean joins the two over the specification of Proof/LossSpec.lean; the last two
  host operations, the same in both programs, are never opened. No rewrite was applied when the kernel was
  idealized, so the idealization claim is trivial.
-/
import proofs.«170635_j14654428414813_1_alg».proof.Defs
import proofs.«170635_j14654428414813_1_alg».proof.Proof.Gen.Kernel
import proofs.«170635_j14654428414813_1_alg».proof.Proof.Gen.Kernel.Skeleton
import proofs.«170635_j14654428414813_1_alg».proof.Proof.Gen.Kernel.Launch
import proofs.«170635_j14654428414813_1_alg».proof.Proof.Gen.Kernel.Points
import proofs.«170635_j14654428414813_1_alg».proof.Proof.Gen.Kernel.Frame
import proofs.«170635_j14654428414813_1_alg».proof.Proof.Gen.KernelIdeal
import proofs.«170635_j14654428414813_1_alg».proof.Proof.Gen.KernelIdeal.Skeleton
import proofs.«170635_j14654428414813_1_alg».proof.Proof.Gen.KernelIdeal.Launch
import proofs.«170635_j14654428414813_1_alg».proof.Proof.Gen.KernelIdeal.Points
import proofs.«170635_j14654428414813_1_alg».proof.Proof.Gen.KernelIdeal.Frame
import proofs.«170635_j14654428414813_1_alg».proof.Proof.Gen.ReferenceIdeal
import proofs.«170635_j14654428414813_1_alg».proof.Proof.Gen.ReferenceIdeal.Run
import proofs.«170635_j14654428414813_1_alg».proof.Proof.Gen.ReferenceIdeal.Read
import proofs.«170635_j14654428414813_1_alg».proof.Proof.Gen.Pre_finite_inputs
import proofs.«170635_j14654428414813_1_alg».proof.Proof.KernelRun
import proofs.«170635_j14654428414813_1_alg».proof.Proof.Fold
import proofs.«170635_j14654428414813_1_alg».proof.Proof.Bridge
import Idealize.ShloMosaic.Adequacy
import Idealize.ShloMosaic.Init

noncomputable section

namespace Cert.Proof

open Idealize.ShloMosaic Idealize.ShloMosaic.TcCoe Idealize.SL.Sem

/-- The kernel program terminates, faults nowhere and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2)
    (Cert.ReferenceIdeal.Value.run (F := Ideal) m ρ)

/-- The idealization rewrote nothing. -/
theorem preserves : Cert.preserves_Kernel_KernelIdeal := trivial

/-- The kernel program's result buffer, as a function of the features `x0` and the labels `x1`, is the reference's last
    stage: the two arrays of losses are equal, and both programs finish with the same sum over 1024. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v4)
      = Cert.ReferenceIdeal.Read.val_main_v25 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.Contrastive.kernel_result, Cert.Contrastive.losses_eq]
  rfl

/-- From memories that agree on the features and the labels, both programs run to the same mean loss. -/
theorem algebraic : Cert.algebraic_KernelIdeal_ReferenceIdeal := by
  intro m ρ m' ρ' _ hagree
  refine ⟨fun c => Cert.ReferenceIdeal.Read.val_main_v25 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (result_eq m ρ c), (h c).2.1, (h c).2.2⟩)
      (Cert.KernelIdeal.Result.run_result (F := Ideal) m ρ)
  · refine (θ_run Cert.ReferenceIdeal.defs _ _).mono
      (fun _ h c => ⟨(h c).1.trans ?_, (h c).2.1, (h c).2.2⟩)
      (Cert.ReferenceIdeal.Value.run (F := Ideal) m' ρ')
    rw [Cert.ReferenceIdeal.Read.val_main_v25_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
